-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_

variable [Facts]

def fn_part1 {F : FTy → Type} [FloatOps F] (main_v10 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v10 main_v16
  main_v17

def fn {F : FTy → Type} [FloatOps F] (main_arg0 : FVec F S100000x128 .f32) (main_arg1 : IVec S640000 32) (main_arg2 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 4294867296#32
  let main_v4 : IVec S640000 32 := broadcastInDim S640000 ![] bcast_S_S640000 main_c_0
  let main_v5 : IVec S640000 1 := cmpi .sge main_arg1 main_v4
  let main_c_1 : IVec S_ 32 := constantI S_ 32 100000#32
  let main_v6 : IVec S640000 32 := broadcastInDim S640000 ![] bcast_S_S640000 main_c_1
  let main_v7 : IVec S640000 1 := cmpi .slt main_arg1 main_v6
  let main_v8 : IVec S640000 1 := andi main_v5 main_v7
  let main_c_2 : IVec S_ 1 := constantI S_ 1 1#1
  let main_v9 : IVec S_ 1 := (fun x v => Host.reduce IntOp.andi x v reducesTo_S640000_S_d0 h_S_) main_v8 main_c_2
  let main_v10 : IVec S_ 1 := andi main_v3 main_v9
  let main_c_3 : IVec S_ 32 := constantI S_ 32 4294867296#32
  let main_v11 : IVec S640000 32 := broadcastInDim S640000 ![] bcast_S_S640000 main_c_3
  let main_v12 : IVec S640000 1 := cmpi .sge main_arg2 main_v11
  let main_c_4 : IVec S_ 32 := constantI S_ 32 100000#32
  let main_v13 : IVec S640000 32 := broadcastInDim S640000 ![] bcast_S_S640000 main_c_4
  let main_v14 : IVec S640000 1 := cmpi .slt main_arg2 main_v13
  let main_v15 : IVec S640000 1 := andi main_v12 main_v14
  let main_c_5 : IVec S_ 1 := constantI S_ 1 1#1
  fn_part1 (F := F) main_v10 main_v15 main_c_5
-- ==== Kernel.lean ====
abbrev S100000x128 : Shape := ⟨2, ![100000, 128]⟩
abbrev S640000 : Shape := ⟨1, ![640000]⟩
abbrev S5000x128 : Shape := ⟨2, ![5000, 128]⟩
abbrev S5000 : Shape := ⟨1, ![5000]⟩
abbrev S5000x1 : Shape := ⟨2, ![5000, 1]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S5120x128 : Shape := ⟨2, ![5120, 128]⟩
abbrev S5120 : Shape := ⟨1, ![5120]⟩

abbrev nBuf : Space → Nat
  | .hbm => 52
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S100000x128, .f32⟩
  | .hbm, ⟨4, _⟩ => ⟨S_, .i32⟩
  | .hbm, ⟨5, _⟩ => ⟨S640000, .i32⟩
  | .hbm, ⟨6, _⟩ => ⟨S640000, .i1⟩
  | .hbm, ⟨7, _⟩ => ⟨S_, .i32⟩
  | .hbm, ⟨8, _⟩ => ⟨S640000, .i32⟩
  | .hbm, ⟨9, _⟩ => ⟨S640000, .i32⟩
  | .hbm, ⟨10, _⟩ => ⟨S640000, .i32⟩
  | .hbm, ⟨11, _⟩ => ⟨S640000x1, .i32⟩
  | .hbm, ⟨12, _⟩ => ⟨S1, .i32⟩
  | .hbm, ⟨13, _⟩ => ⟨S_, .i32⟩
  | .hbm, ⟨14, _⟩ => ⟨S640000x1, .i32⟩
  | .hbm, ⟨15, _⟩ => ⟨S640000x1, .i1⟩
  | .hbm, ⟨16, _⟩ => ⟨S1x1, .i32⟩
  | .hbm, ⟨17, _⟩ => ⟨S640000x1, .i32⟩
  | .hbm, ⟨18, _⟩ => ⟨S640000x1, .i1⟩
  | .hbm, ⟨19, _⟩ => ⟨S640000x1, .i1⟩
  | .hbm, ⟨20, _⟩ => ⟨S_, .i1⟩
  | .hbm, ⟨21, _⟩ => ⟨S640000, .i1⟩
  | .hbm, ⟨22, _⟩ => ⟨S640000x128, .f32⟩
  | .hbm, ⟨23, _⟩ => ⟨S640000x128, .i1⟩
  | .hbm, ⟨24, _⟩ => ⟨S_, .f32⟩
  | .hbm, ⟨25, _⟩ => ⟨S640000x128, .f32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S1, .i32⟩
  | .hbm, ⟨36, _⟩ => ⟨S_, .i32⟩
  | .hbm, ⟨37, _⟩ => ⟨S640000x1, .i32⟩
  | .hbm, ⟨38, _⟩ => ⟨S640000x1, .i1⟩
  | .hbm, ⟨39, _⟩ => ⟨S1x1, .i32⟩
  | .hbm, ⟨40, _⟩ => ⟨S640000x1, .i32⟩
  | .hbm, ⟨41, _⟩ => ⟨S640000x1, .i1⟩
  | .hbm, ⟨42, _⟩ => ⟨S640000x1, .i1⟩
  | .hbm, ⟨43, _⟩ => ⟨S_, .i1⟩
  | .hbm, ⟨44, _⟩ => ⟨S640000, .i1⟩
  | .hbm, ⟨45, _⟩ => ⟨S640000x128, .f32⟩
  | .hbm, ⟨46, _⟩ => ⟨S640000x128, .i1⟩
  | .hbm, ⟨47, _⟩ => ⟨S_, .f32⟩
  | .hbm, ⟨48, _⟩ => ⟨S640000x128, .f32⟩
  | .hbm, ⟨49, _⟩ => ⟨S640000x128, .f32⟩
  | .hbm, ⟨50, _⟩ => ⟨S640000, .f32⟩
  | .hbm, ⟨51, _⟩ => ⟨S640000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5120x128, .f32⟩
  | .local _ .vmem, ⟨5, _⟩ => ⟨S5120x128, .f32⟩
  | .local _ .vmem, ⟨6, _⟩ => ⟨S5120x128, .f32⟩
  | .local _ .vmem, ⟨7, _⟩ => ⟨S5120x128, .f32⟩
  | .local _ .vmem, ⟨8, _⟩ => ⟨S5120, .f32⟩
  | .local _ .vmem, ⟨9, _⟩ => ⟨S5120, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S5120x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5120x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5120 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  reduces_S5120x128_S5120 : S5120x128.Reduces [1] S5120
  inb_S5120_S5120_0 : ∀ a, (![0] : Fin 1 → Nat) a + S5120.size a ≤ S5120.size a
  h_S5120 : 0 < S5120.numel
  shapeCasts_S640000_S640000x1 : S640000.ShapeCasts S640000x1
  gather_S100000x128_S640000x1_S640000x128_1_0_n_n_0_1_1128_wf : GatherDims.WF S100000x128 S640000x1 S640000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120x128.size a ≤ S640000x128.size a
  hwx1_0 : ∀ i : grid1.Coords, EltTy.bits .f32 = 32 ∨ (Rect.block (s := S640000x128) S5120x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x128.size a ≤ S640000x128.size a
  hwx1_1 : ∀ i : grid1.Coords, EltTy.bits .f32 = 32 ∨ (Rect.block (s := S640000x128) S5120x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5120.size a ≤ S640000.size a
  hwx1_2 : ∀ i : grid1.Coords, EltTy.bits .f32 = 32 ∨ (Rect.block (s := S640000) S5120.size (cc1_transform_2 i) (hinb1_2 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S5120x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5120x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5120.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000 : Shape := ⟨1, ![640000]⟩
abbrev S_ : Shape := ⟨0, ![]⟩
abbrev S100000 : Shape := ⟨1, ![100000]⟩
abbrev S100000x1 : Shape := ⟨2, ![100000, 1]⟩
abbrev S640000x1 : Shape := ⟨2, ![640000, 1]⟩
abbrev S640000x128 : Shape := ⟨2, ![640000, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S100000x128, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S100000x1, .f32⟩
  | .hbm, ⟨10, _⟩ => ⟨S100000x1, .f32⟩
  | .hbm, ⟨11, _⟩ => ⟨S100000x128, .f32⟩
  | .hbm, ⟨12, _⟩ => ⟨S100000x128, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S640000, .f32⟩
  | .hbm, ⟨34, _⟩ => ⟨S640000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  reducesTo_S640000x128_S640000_d1 : S640000x128.ReducesTo [1] S640000
  gather_S100000x128_S640000x1_S640000x128_1_0_n_n_0_1_1128_wf : GatherDims.WF S100000x128 S640000x1 S640000x128 [1] [0] [] [0] [] 1 ![1, 128]

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf

class Facts : Prop extends Facts₀ where

variable [Facts]
-- ==== Proof.PreRange.lean ====
/-
  The precondition read back. Beside the finiteness of the table it states, for both index arrays, that every entry
  lies in [-100000, 100000): a signed compare against the word of -100000 and one against 100000, joined by `and`,
  reduced by `and` over all 640000 entries. From "the predicate is 1" follow the two compares at every entry.
-/
import proofs.«412106_j7687991460132_1_alg».proof.Pre_finite_inputs
import Idealize.ShloMosaic.Lib.ReduceAll
import Idealize.ShloMosaic.Lib.StableHlo.Predicate

noncomputable section

namespace Cert.Hand

open Idealize.ShloMosaic Cert.Pre_finite_inputs

variable [Cert.Pre_finite_inputs.Facts]
open Cert.Pre_finite_inputs.Facts

instance subsingleton_scalar_idx : Subsingleton S_.Idx := ⟨fun a b => funext fun d => d.elim0⟩

/-- Where the precondition holds, every entry of both index arrays is at least -100000 and below 100000. -/
theorem index_range {F : FTy → Type} [FloatOps F] (x : FVec F S100000x128 .f32) (a1 a2 : IVec S640000 32)
    (h : Cert.Pre_finite_inputs.fn (F := F) x a1 a2 = fun _ => 1#1) :
    (∀ e : S640000.Idx, IntOp.cmpi .sge (a1 e) 4294867296#32 = 1#1 ∧ IntOp.cmpi .slt (a1 e) 100000#32 = 1#1)
    ∧ (∀ e : S640000.Idx, IntOp.cmpi .sge (a2 e) 4294867296#32 = 1#1 ∧ IntOp.cmpi .slt (a2 e) 100000#32 = 1#1) := by
  have h0 := congrFun h (fun d => d.elim0)
  dsimp only [fn, fn_part1] at h0
  obtain ⟨h01, h2⟩ := IntOp.andi_eq_one.1 h0
  obtain ⟨-, h1⟩ := IntOp.andi_eq_one.1 h01
  have key : ∀ (a : IVec S640000 32) (e : S640000.Idx),
      (andi (cmpi .sge a (broadcastInDim S640000 ![] bcast_S_S640000 (constantI S_ 32 4294867296#32)))
        (cmpi .slt a (broadcastInDim S640000 ![] bcast_S_S640000 (constantI S_ 32 100000#32)))) e = 1#1 →
      IntOp.cmpi .sge (a e) 4294867296#32 = 1#1 ∧ IntOp.cmpi .slt (a e) 100000#32 = 1#1 := by
    intro a e he
    obtain ⟨ha, hb⟩ := IntOp.andi_eq_one.1 he
    have ea : broadcastInDim S640000 ![] bcast_S_S640000 (constantI S_ 32 4294867296#32) e = 4294867296#32 :=
      StableHlo.Predicate.bcast_scalar bcast_S_S640000 h_S_ _ e
    have eb : broadcastInDim S640000 ![] bcast_S_S640000 (constantI S_ 32 100000#32) e = 100000#32 :=
      StableHlo.Predicate.bcast_scalar bcast_S_S640000 h_S_ _ e
    refine ⟨?_, ?_⟩
    · have : IntOp.cmpi .sge (a e) (broadcastInDim S640000 ![] bcast_S_S640000 (constantI S_ 32 4294867296#32) e) = 1#1 := ha
      rwa [ea] at this
    · have : IntOp.cmpi .slt (a e) (broadcastInDim S640000 ![] bcast_S_S640000 (constantI S_ 32 100000#32) e) = 1#1 := hb
      rwa [eb] at this
  exact ⟨fun e => key a1 e (Host.reduce_andi_all _ _ _ _ _ h1 e), fun e => key a2 e (Host.reduce_andi_all _ _ _ _ _ h2 e)⟩

end Cert.Hand

end
-- ==== Proof.Spec.lean ====
/-
  The two whole-array functions the certificate is stated over, at the ideal values (floats are extended reals).

  * `normRows x`: every row of the [100000,128] table `x` divided, entry by entry, by the larger of the row's Euclidean
    norm `sqrt (0 + Σ_j x[r,j]·x[r,j])` and the floor ε (the word 0x2B8CBCCC). It is the reference's own fifth stage,
    so that what the first region leaves IS the table the reference gathers from.
  * `dotRows A B`: entry `e` is `0 + Σ_k A[e,k]·B[e,k]`, the row-wise inner product of two [640000,128] tables as the
    reference's host sum computes it.
-/
import proofs.«412106_j7687991460132_1_alg».proof.Proof.Gen.ReferenceIdeal.Read

noncomputable section

namespace Cert.Hand

open Idealize.ShloMosaic Cert.ReferenceIdeal Cert.ReferenceIdeal.Gen

/-- Each row of `x` over max(‖row‖₂, ε). -/
abbrev normRows (x : (⟨S100000x128, .f32⟩ : BufTy).Contents (Elt Ideal)) : (⟨S100000x128, .f32⟩ : BufTy).Contents (Elt Ideal) :=
  Cert.ReferenceIdeal.Read.val_main_v4 (F := Ideal) x

/-- Row-wise inner products: entry `e` is `0 + Σ_k A[e,k]·B[e,k]`. -/
def dotRows (A B : (⟨S640000x128, .f32⟩ : BufTy).Contents (Elt Ideal)) : (⟨S640000, .f32⟩ : BufTy).Contents (Elt Ideal) :=
  Host.reduceAdd (F := Ideal) (mulf A B) (constant (F := Ideal) S_ .f32 0x00000000#32) reducesTo_S640000x128_S640000_d1 h_S_

end Cert.Hand

end
-- ==== Proof.NormRegion.lean ====
/-
  The row-normalizing region, from blocks to the whole table.

  The region runs over a grid of 20 points. Point `t` reads rows `5000·t … 5000·t + 4999` of the [100000,128] table
  `x` and writes back the same rows of the result. Its one store is, at entry `(p, q)` of the loaded block `v`,
  `v(p,q) / max( sqrt( Σ_j v(p,j)·v(p,j) ), ε )` with ε the word 0x2B8CBCCC. The reference's normalized table has, at
  `(r, q)`, `x(r,q) / max( sqrt( 0 + Σ_j x(r,j)·x(r,j) ), ε )`. At the ideal values the vector and host spellings of
  division and square root are one function and the host sum's initial word is zero, so a block row that IS a table
  row gives the same entry (`NormRegion.pay_row`); block `t` of the normalized table is therefore what point `t` writes back
  (`NormRegion.flushed_norm`), the 20 blocks tile the table (`NormRegion.outBlocks_cover`), and the table ends holding the normalized rows
  (`norm_final`).
-/
import proofs.«412106_j7687991460132_1_alg».proof.Proof.Spec
import proofs.«412106_j7687991460132_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Hand
open Idealize.ShloMosaic Idealize.ShloMosaic.TcCoe Idealize.SL.Sem Cert.KernelIdeal Cert.KernelIdeal.Gen
open Idealize.ShloMosaic.Pipeline (Dat)
open Idealize.ShloMosaic.ValueIdx

namespace NormRegion

/-! ## Layout operations and the lane sum at an index; one row of the payload; the blocks; the cover -/

/-- A column `[a]` cast to `[a, 1]` reads, at `(i, u)`, the operand at `i`. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_col_apply {α : Type} {a b : ℕ} (v : (⟨2, ![a, 1]⟩ : Shape).Idx → α) (h : (⟨2, ![a, 1]⟩ : Shape).Broadcasts ⟨2, ![a, b]⟩)
    (ha : a ≠ 1) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- The lane sum of a `[5000, 128]` block, read at row `p`: the sum over the 128 columns of that row. -/
theorem laneSum_apply (src : FVec Ideal S5000x128 .f32) (h : S5000x128.Reduces [1] S5000) (hφ : FKind.Formats .f32)
    (hacc : (0x00000000#32 : BitVec 32) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The reference's three composed index maps send `(r, q)` and a column `k` to `(r, k)`. -/
theorem refRow_idx (r : Fin 100000) (q k : Fin 128) :
    Cert.ReferenceIdeal.Read.idx_main_call0_v1
      (Cert.ReferenceIdeal.Read.idx_main_call0_v2 (Cert.ReferenceIdeal.Read.idx_main_v3 (ix2 r q))) k = ix2 r k :=
  funext fun a => Fin.ext (by match a with | ⟨0, _⟩ => rfl | ⟨1, _⟩ => rfl)

/-- ONE ROW. If row `p` of the block `v` is row `r` of the table `x`, the payload at `(p, q)` is the reference's
    normalized table at `(r, q)`: both divide the entry by max(sqrt(Σ_j row[j]·row[j]), ε), the two sums running over
    the 128 columns of one row, the host's from the zero word. -/
theorem pay_row (v : Vec Ideal S5000x128 .f32) (x : (⟨Cert.ReferenceIdeal.S100000x128, .f32⟩ : BufTy).Contents (Elt Ideal))
    (p : Fin 5000) (r : Fin 100000) (hrow : ∀ k : Fin 128, v (ix2 p k) = x (ix2 r k)) (q : Fin 128) :
    (k0_pay1 (F := Ideal) v) (ix2 p q) = Cert.ReferenceIdeal.Read.val_main_v4 (F := Ideal) x (ix2 r q) := by
  unfold k0_pay1
  rw [Cert.ReferenceIdeal.Read.val_main_v4_apply, Cert.ReferenceIdeal.Read.val_main_v3_apply,
    Cert.ReferenceIdeal.Read.val_main_v2_apply, Cert.ReferenceIdeal.Read.val_main_v0_apply,
    Cert.ReferenceIdeal.Read.val_main_v1_apply, Cert.ReferenceIdeal.Read.val_main_cst_apply,
    Cert.ReferenceIdeal.Read.val_main_call0_v2_apply, Cert.ReferenceIdeal.Read.val_main_call0_v1_apply,
    Cert.ReferenceIdeal.Read.val_main_call0_cst_apply]
  rw [divf_apply, Ideal.hostDivf_def]
  refine congrArg₂ Ideal.div (hrow q) ?_
  rw [broadcastTo_col_apply _ _ (by decide) p q, maximumf_apply, Ideal.maximumf_def]
  refine congrArg₂ max ?_ rfl
  show Ideal.sqrt (shapeCast S5000x1 _ shapeCasts_S5000_S5000x1 (ix2 p (0 : Fin 1))) = Ideal.sqrt _
  refine congrArg Ideal.sqrt ?_
  rw [shapeCast_col_apply, laneSum_apply, Ideal.ofBits_def, Ideal.ofBits_zero_f32, zero_add]
  refine Finset.sum_congr rfl fun k _ => ?_
  rw [mulf_apply, Cert.ReferenceIdeal.Read.val_main_call0_v0_apply, refRow_idx, hrow k]
  rfl

theorem zeroOff : (![0, 0] : Fin 2 → Nat) = fun _ => 0 := funext fun a => by fin_cases a <;> rfl

/-- The two windows' printed index maps, decided over the grid: point `t` is at block row `t`, block column `0`, of
    the input table and of the output table alike. -/
theorem blockRow : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the normalized table: the rows `5000·t … 5000·t + 4999`. -/
theorem flushed_norm (V : (c : Dev nD) → (b : Ref sig .tc) → Buf (Elt Ideal) ((c : Thread nD τ).loc b)) (c : Dev nD)
    (t : Fin cfg0.N) :
    (dat0 (F := Ideal) V c).flushed 1 t
      = ((cfg0.win 1).blk t).view.read (Elt Ideal) (Cert.Hand.normRows (V c main_arg0)) := by
  show (cfg0.win 1).cut (grid0.coords t) ((dat0 V c).after 1 t) = _
  rw [after0_1]
  unfold out0_1
  rw [View.canon_unit_zero zeroOff]
  simp only [View.ld_unit_zero (S := S5000x128) zeroOff]
  obtain ⟨e0, e1, e2, e3⟩ := blockRow t
  have ht : t.val < 20 := t.isLt
  funext j
  have hj0 : (j 0).val < 5000 := (j 0).isLt
  have hj1 : (j 1).val < 128 := (j 1).isLt
  show k0_pay1 (iblk0 V c 0 t) j
    = Cert.ReferenceIdeal.Read.val_main_v4 (F := Ideal) (V c main_arg0) (((cfg0.win 1).blk t).view.emb j)
  -- the output block's entry (p, q) sits at row 5000·t + p, column q of the table
  have hout : ((cfg0.win 1).blk t).view.emb j
      = ix2 (⟨5000 * t.val + (j 0).val, by omega⟩ : Fin 100000) (⟨(j 1).val, hj1⟩ : Fin 128) := by
    funext a; apply Fin.ext
    match a with
    | ⟨0, _⟩ => show win0_1.index t (0 : Fin 2) * 5000 + 1 * (j 0).val = 5000 * t.val + (j 0).val; omega
    | ⟨1, _⟩ => show win0_1.index t (1 : Fin 2) * 128 + 1 * (j 1).val = (j 1).val; omega
  refine (congrArg (k0_pay1 (iblk0 V c 0 t)) (eq_ix2 j)).trans ?_
  refine (pay_row (iblk0 V c 0 t) (V c main_arg0) ⟨(j 0).val, hj0⟩ ⟨5000 * t.val + (j 0).val, by omega⟩ ?_ ⟨(j 1).val, hj1⟩).trans
    (congrArg _ hout.symm)
  -- and the input block's row p is the same row of the table
  intro k
  show V c main_arg0 (((cfg0.win 0).blk t).view.emb (ix2 (⟨(j 0).val, hj0⟩ : Fin 5000) k)) = _
  refine congrArg (V c main_arg0) ?_
  funext a; apply Fin.ext
  match a with
  | ⟨0, _⟩ => show win0_0.index t (0 : Fin 2) * 5000 + 1 * (j 0).val = 5000 * t.val + (j 0).val; omega
  | ⟨1, _⟩ => show win0_0.index t (1 : Fin 2) * 128 + 1 * k.val = k.val; omega

/-- An entry of the table is in point `t`'s output block iff each coordinate is in the block's range on its axis. -/
theorem mem_outBlock (t : Fin cfg0.N) (i : S100000x128.Idx) :
    i ∈ ((cfg0.win 1).blk t).view.set ↔ ∀ a : Fin 2, win0_1.index t a * S5000x128.size a ≤ (i a).val
      ∧ (i a).val < win0_1.index t a * S5000x128.size a + S5000x128.size a := by
  show i ∈ ((View.whole main_v0).slice (win0_1.rect t)).set ↔ _
  rw [View.set_slice_whole, Rect.mem_set_unit]
  exact Iff.rfl

/-- THE BLOCKS TILE THE TABLE: row `r` is written back by point `r / 5000`. -/
theorem outBlocks_cover (i : S100000x128.Idx) :
    ∃ t : Fin cfg0.N, (cfg0.win 1).flush t = true ∧ i ∈ ((cfg0.win 1).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨e0, e1, e2, e3⟩ := blockRow ⟨(i 0).val / 5000, hlt⟩
  have e2' : win0_1.index ⟨(i 0).val / 5000, hlt⟩ (0 : Fin 2) = (i 0).val / 5000 := e2
  refine ⟨⟨(i 0).val / 5000, hlt⟩, flush0_1 _, ?_⟩
  rw [mem_outBlock]
  intro a
  match a with
  | ⟨0, _⟩ =>
    show win0_1.index ⟨(i 0).val / 5000, hlt⟩ (0 : Fin 2) * 5000 ≤ (i 0).val
      ∧ (i 0).val < win0_1.index ⟨(i 0).val / 5000, hlt⟩ (0 : Fin 2) * 5000 + 5000
    omega
  | ⟨1, _⟩ =>
    show win0_1.index ⟨(i 0).val / 5000, hlt⟩ (1 : Fin 2) * 128 ≤ (i 1).val
      ∧ (i 1).val < win0_1.index ⟨(i 0).val / 5000, hlt⟩ (1 : Fin 2) * 128 + 128
    omega

end NormRegion

/-- THE TABLE after the region: every row of the argument divided by max(its Euclidean norm, ε). -/
theorem norm_final (V : (c : Dev nD) → (b : Ref sig .tc) → Buf (Elt Ideal) ((c : Thread nD τ).loc b)) (c : Dev nD) :
    (dat0 (F := Ideal) V c).arrAt 1 cfg0.N = Cert.Hand.normRows (V c main_arg0) :=
  (dat0 (F := Ideal) V c).arrAt_eq_of_cover 1 (Cert.Hand.normRows (V c main_arg0))
    (fun t _ => NormRegion.flushed_norm V c t) NormRegion.outBlocks_cover

end Cert.KernelIdeal.Hand
end
-- ==== Proof.DotRegion.lean ====
/-
  Region 1, the row-wise inner product: what its output array holds after the last grid point.

  The grid has 125 points. Point `t` reads rows `5120·t … 5120·t + 5119` of the two [640000,128] tables `A` (window 0)
  and `B` (window 1) and writes entries `5120·t … 5120·t + 5119` of the [640000] output (window 2). Entry `p` of the
  block it writes is `Σ_k a(p,k)·b(p,k)` over the 128 lanes of the two blocks it read. The reference's `dotRows A B` at
  entry `e` is `0 + Σ_k A(e,k)·B(e,k)`. So block `t` of `dotRows A B` is the body's result on blocks `t` of `A` and `B`,
  and the 125 blocks tile the output: the array ends holding `dotRows A B`.
-/
import proofs.«412106_j7687991460132_1_alg».proof.Proof.Spec
import proofs.«412106_j7687991460132_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem Cert.KernelIdeal Cert.KernelIdeal.Gen
open Idealize.ShloMosaic.Pipeline (Dat)
open Idealize.ShloMosaic.ValueIdx

/-! ## One entry of a block, and one entry of the reference -/

/-- Entry `p` of the body's result on two [5120,128] blocks: the two shape casts are to the same shape, the product is
    entry by entry, and the lane sum over axis 1 at row `p` is the sum over the 128 columns of row `p`. -/
theorem dotPayload_apply (a b : FVec Ideal S5120x128 .f32) (p : Fin 5120) :
    (k1_pay1 (F := Ideal) a b) (ix1 p) = ∑ k : Fin 128, a (ix2 p k) * b (ix2 p k) := by
  unfold k1_pay1
  simp only [shapeCast_self]
  refine (Ideal.multiReduction_add_single (mulf a b) _ reduces_S5120x128_S5120 _ _ (ix1 p)).trans ?_
  refine Finset.sum_congr rfl fun k _ => ?_
  have e : reduces_S5120x128_S5120.lift (ix1 p) k = ix2 p k :=
    funext fun d => Fin.ext (by match d with | ⟨0, _⟩ => rfl | ⟨1, _⟩ => rfl)
  exact congrArg (fun i => a i * b i) e

/-- Entry `e` of `dotRows A B`: the host sum over axis 1 starts from the zero word, which is the extended real `0`,
    so the entry is the sum over the 128 columns of row `e` of the products. -/
theorem dotRows_apply (A B : FVec Ideal Cert.ReferenceIdeal.S640000x128 .f32) (e : Fin 640000) :
    Cert.Hand.dotRows A B (ix1 e) = ∑ k : Fin 128, A (ix2 e k) * B (ix2 e k) := by
  unfold Cert.Hand.dotRows
  simp only [Host.reduceAdd, Ideal.hostReduceAdd_def]
  rw [Ideal.hostReduceAdd_single Cert.ReferenceIdeal.Gen.reducesTo_S640000x128_S640000_d1 (by decide)]
  rw [constant_apply, Ideal.ofBits_zero_f32, zero_add]
  refine Finset.sum_congr rfl fun k _ => ?_
  exact congrArg (fun i => A i * B i)
    (funext fun d => Fin.ext (by match d with | ⟨0, _⟩ => rfl | ⟨1, _⟩ => rfl))

/-! ## Where point `t`'s blocks lie -/

/-- The three index maps over the grid: at point `t` each table's block is row block `t`, column block `0`, and the
    output's block is block `t`. -/
theorem dotBlockIndex_eq_point : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = t.val :=
  (by decide +kernel : ∀ t : Fin grid1.N, _)

/-- A grid point is below 125. -/
theorem dotPoint_lt (t : Fin cfg1.N) : t.val < 125 := lt_of_lt_of_eq t.isLt N_1

/-- Row `p`, column `k` of the first table's block at point `t` is row `5120·t + p`, column `k` of the table: a block's
    coordinate is its block index times the block's extent plus the coordinate inside the block. -/
theorem dotRowsA_apply (V : (c : Dev nD) → (b : Ref sig .tc) → Buf (Elt Ideal) ((c : Thread nD τ).loc b)) (c : Dev nD)
    (t : Fin cfg1.N) (p : Fin 5120) (k : Fin 128) (e : Fin 640000) (he : e.val = 5120 * t.val + p.val) :
    (iblk1 (F := Ideal) V c 0 t : FVec Ideal S5120x128 .f32) (ix2 p k)
      = (V c main_v1 : FVec Ideal S640000x128 .f32) (ix2 e k) := by
  obtain ⟨h0, h1, -, -, -⟩ := dotBlockIndex_eq_point t
  unfold iblk1
  rw [View.read_apply]
  show V c main_v1 _ = V c main_v1 _
  congr 1
  funext a
  apply Fin.ext
  match a with
  | ⟨0, _⟩ => show win1_0.index t (0 : Fin 2) * 5120 + 1 * p.val = e.val; omega
  | ⟨1, _⟩ => show win1_0.index t (1 : Fin 2) * 128 + 1 * k.val = k.val; omega

/-- The same for the second table. -/
theorem dotRowsB_apply (V : (c : Dev nD) → (b : Ref sig .tc) → Buf (Elt Ideal) ((c : Thread nD τ).loc b)) (c : Dev nD)
    (t : Fin cfg1.N) (p : Fin 5120) (k : Fin 128) (e : Fin 640000) (he : e.val = 5120 * t.val + p.val) :
    (iblk1 (F := Ideal) V c 1 t : FVec Ideal S5120x128 .f32) (ix2 p k)
      = (V c main_v2 : FVec Ideal S640000x128 .f32) (ix2 e k) := by
  obtain ⟨-, -, h0, h1, -⟩ := dotBlockIndex_eq_point t
  unfold iblk1
  rw [View.read_apply]
  show V c main_v2 _ = V c main_v2 _
  congr 1
  funext a
  apply Fin.ext
  match a with
  | ⟨0, _⟩ => show win1_1.index t (0 : Fin 2) * 5120 + 1 * p.val = e.val; omega
  | ⟨1, _⟩ => show win1_1.index t (1 : Fin 2) * 128 + 1 * k.val = k.val; omega

/-! ## What point `t` writes back -/

/-- The body loads and stores its whole buffers: through rectangles at zero offsets, of rank 2 for the loads and of
    rank 1 for the store. -/
theorem dotZeroOffsets2 : (![0, 0] : Fin 2 → Nat) = fun _ => 0 := funext fun a => by fin_cases a <;> rfl
theorem dotZeroOffsets1 : (![0] : Fin 1 → Nat) = fun _ => 0 := funext fun a => by fin_cases a; rfl

/-- POINT `t` WRITES BLOCK `t` OF `dotRows A B`: entry `p` of what it writes is `Σ_k a(p,k)·b(p,k)` of its two blocks,
    whose row `p` is row `5120·t + p` of the tables, and entry `p` of the output's block `t` is entry `5120·t + p`, where
    `dotRows A B` is that same sum. -/
theorem dot_flushed (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (Cert.Hand.dotRows (V c main_v1) (V c main_v2)) := by
  show (cfg1.win 2).cut (grid1.coords t) ((dat1 V c).after 2 t) = _
  rw [after1_2]
  unfold out1_2
  rw [View.canon_unit_zero dotZeroOffsets1]
  simp only [View.ld_unit_zero (S := S5120x128) dotZeroOffsets2]
  funext j
  obtain ⟨p, rfl⟩ : ∃ p : Fin 5120, j = ix1 p := ⟨j 0, eq_ix1 j⟩
  obtain ⟨-, -, -, -, hrow⟩ := dotBlockIndex_eq_point t
  have ht := dotPoint_lt t
  have hlt : 5120 * t.val + p.val < 640000 := by have := p.isLt; omega
  show k1_pay1 (F := Ideal) (iblk1 V c 0 t) (iblk1 V c 1 t) (ix1 p)
      = Cert.Hand.dotRows (V c main_v1) (V c main_v2) (((cfg1.win 2).blk t).view.emb (ix1 p))
  have hemb : ((cfg1.win 2).blk t).view.emb (ix1 p) = ix1 (⟨5120 * t.val + p.val, hlt⟩ : Fin 640000) := by
    funext a
    apply Fin.ext
    match a with
    | ⟨0, _⟩ => show win1_2.index t (0 : Fin 1) * 5120 + 1 * p.val = 5120 * t.val + p.val; omega
  rw [hemb, dotPayload_apply, dotRows_apply]
  refine Finset.sum_congr rfl fun k _ => ?_
  rw [dotRowsA_apply V c t p k ⟨5120 * t.val + p.val, hlt⟩ rfl, dotRowsB_apply V c t p k ⟨5120 * t.val + p.val, hlt⟩ rfl]

/-! ## The blocks tile the output -/

/-- An entry of the output is in point `t`'s block iff it lies in the block's range. -/
theorem dot_mem_rowBlock (t : Fin cfg1.N) (i : S640000.Idx) :
    i ∈ ((cfg1.win 2).blk t).view.set
      ↔ ∀ a : Fin 1, win1_2.index t a * S5120.size a ≤ (i a).val
          ∧ (i a).val < win1_2.index t a * S5120.size a + S5120.size a := by
  show i ∈ ((View.whole main_v3).slice (win1_2.rect t)).set ↔ _
  rw [View.set_slice_whole, Rect.mem_set_unit]
  exact Iff.rfl

/-- Entry `e` is in the block of point `e / 5120`, which writes back (every point does): the 125 blocks of 5120
    entries cover all 640000. -/
theorem dot_rowBlocks_cover (i : S640000.Idx) :
    ∃ t : Fin cfg1.N, (cfg1.win 2).flush t = true ∧ i ∈ ((cfg1.win 2).blk t).view.set := by
  have hi : (i 0).val < 640000 := (i 0).isLt
  have hq : (i 0).val / 5120 < cfg1.N := by show _ < grid1.N; rw [N_1]; omega
  obtain ⟨-, -, -, -, hrow⟩ := dotBlockIndex_eq_point ⟨(i 0).val / 5120, hq⟩
  refine ⟨⟨(i 0).val / 5120, hq⟩, flush1_2 _, ?_⟩
  rw [dot_mem_rowBlock]
  intro a
  match a with
  | ⟨0, _⟩ =>
    show win1_2.index ⟨(i 0).val / 5120, hq⟩ (0 : Fin 1) * 5120 ≤ (i 0).val
      ∧ (i 0).val < win1_2.index ⟨(i 0).val / 5120, hq⟩ (0 : Fin 1) * 5120 + 5120
    rw [hrow]
    show (i 0).val / 5120 * 5120 ≤ (i 0).val ∧ (i 0).val < (i 0).val / 5120 * 5120 + 5120
    omega

/-! ## The output array after the region -/

/-- Every point writes its block of `dotRows A B` and the blocks cover the array, so the array ends holding
    `dotRows A B` of the two tables as the region finds them. -/
theorem dot_final (V : (c : Dev nD) → (b : Ref sig .tc) → Buf (Elt Ideal) ((c : Thread nD τ).loc b)) (c : Dev nD) :
    (dat1 (F := Ideal) V c).arrAt 2 cfg1.N = Cert.Hand.dotRows (V c main_v1) (V c main_v2) :=
  (dat1 V c).arrAt_eq_of_cover 2 _ (fun t _ => dot_flushed V c t) (fun i => dot_rowBlocks_cover i)

end Cert.KernelIdeal.Hand

end
-- ==== Proof.Take.lean ====
/-
  The two host stretches between the regions: jnp's `take` of rows of a [100000,128] table `X` at 640000 signed indices.
  An index is first wrapped (`idx + 100000` where `idx < 0`), laid out as a [640000,1] column, and tested against
  [0, 99999]; row `e` of the result is row `wrap idx[e]` of `X` (a gather, whose start index is clamped into the table)
  where the test holds, and the fill word 0x7FC00000 in every column where it fails. Written here: that term
  (`takeRows`), that each stretch leaves it in its result buffer and leaves the buffers it does not write alone, and
  that where every index lies in [-100000, 100000) the test holds everywhere, so `takeRows` is the bare gather.
-/
import proofs.«412106_j7687991460132_1_alg».proof.Proof.Gen.KernelIdeal.Launch
import Idealize.ShloMosaic.Lib.StableHlo.Run
import Idealize.ShloMosaic.Lib.Affine
import Idealize.ShloMosaic.PureOps.Reduce

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-! ## The term -/

/-- The indices wrapped: `idx + 100000` where `idx` is negative, `idx` elsewhere. -/
def wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 100000#32))) idx

/-- The wrapped indices as the [640000,1] column of start indices the gather takes. -/
def wrapCol (idx : IVec S640000 32) : IVec S640000x1 32 :=
  broadcastInDim S640000x1 ![0] bcast_S640000_S640000x1_0 (wrapIdx idx)

/-- Per row: is the start index inside [0, 99999]? (An `and` over the column's one entry.) -/
def inTable (w : IVec S640000x1 32) : IVec S640000 1 :=
  Host.reduce IntOp.andi
    (andi (cmpi .sge w (broadcastInDim S640000x1 ![] bcast_S_S640000x1 (constantI S_ 32 0#32)))
      (cmpi .sle w (broadcastInDim S640000x1 ![0, 1] bcast_S1x1_S640000x1_0_1 (broadcastInDim S1x1 ![1] bcast_S1_S1x1_1 (constantI S1 32 99999#32)))))
    (constantI S_ 1 1#1) reducesTo_S640000x1_S640000_d1 h_S_

/-- Rows of `X` at the wrapped indices; the fill word in the rows whose index is off the table. -/
def takeRows (X : (⟨S100000x128, .f32⟩ : BufTy).Contents (Elt F)) (idx : IVec S640000 32) : (⟨S640000x128, .f32⟩ : BufTy).Contents (Elt F) :=
  select (broadcastInDim S640000x128 ![0] bcast_S640000_S640000x128_0 (inTable (wrapCol idx)))
    (Host.gather gather_S100000x128_S640000x1_S640000x128_1_0_n_n_0_1_1128 X (wrapCol idx))
    (broadcastInDim S640000x128 ![] bcast_S_S640000x128 (constant (F := F) S_ .f32 0x7FC00000#32))

/-! ## What the stretches leave -/

/-- Contents carried to a buffer's own type and back are the contents. -/
theorem ofBuf_toBuf {T : BufTy} {Val : EltTy → Type} (x : TRef sig T) (v : T.Contents Val) : x.ofBuf (x.toBuf v) = v := by
  obtain ⟨r, rfl, _, _⟩ := x
  rfl

/-- At a buffer whose type is the value's by computation the transport is the identity: the five buffers the two
    stretches read and write. -/
theorem toBuf_v1 (Y : (⟨S640000x128, .f32⟩ : BufTy).Contents (Elt F)) :
    (TRef.of (T := ⟨S640000x128, .f32⟩) main_v1).toBuf Y = Y := rfl
theorem toBuf_v2 (Y : (⟨S640000x128, .f32⟩ : BufTy).Contents (Elt F)) :
    (TRef.of (T := ⟨S640000x128, .f32⟩) main_v2).toBuf Y = Y := rfl
theorem ofBuf_v0 (Y : (⟨S100000x128, .f32⟩ : BufTy).Contents (Elt F)) :
    (TRef.of (T := ⟨S100000x128, .f32⟩) main_v0).ofBuf Y = Y := rfl
theorem ofBuf_arg1 (Y : (⟨S640000, .i32⟩ : BufTy).Contents (Elt F)) :
    (TRef.of (T := ⟨S640000, .i32⟩) main_arg1).ofBuf Y = Y := rfl
theorem ofBuf_arg2 (Y : (⟨S640000, .i32⟩ : BufTy).Contents (Elt F)) :
    (TRef.of (T := ⟨S640000, .i32⟩) main_arg2).ofBuf Y = Y := rfl

/-- The first stretch leaves in its result buffer the rows of the table in `main_v0` at the indices in `main_arg1`. -/
theorem stretch1_result (W : Valuation τ sig (Elt F)) :
    StableHlo.after (hostOps1 (F := F)) W (Proc.devRef .tc main_v1)
      = takeRows (F := F) (W (Proc.devRef .tc main_v0)) (W (Proc.devRef .tc main_arg1)) := by
  have e : StableHlo.after (hostOps1 (F := F)) W (Proc.devRef .tc main_v1)
      = (TRef.of (T := ⟨S640000x128, .f32⟩) main_v1).toBuf (takeRows (F := F)
          ((TRef.of (T := ⟨S100000x128, .f32⟩) main_v0).ofBuf (W (Proc.devRef .tc main_v0)))
          ((TRef.of (T := ⟨S640000, .i32⟩) main_arg1).ofBuf (W (Proc.devRef .tc main_arg1)))) := by
    after_results_simp
    simp only [ofBuf_toBuf]
    unfold takeRows inTable wrapCol wrapIdx
    rfl
  rw [e, toBuf_v1, ofBuf_v0, ofBuf_arg1]

/-- The second stretch leaves in its result buffer the rows of the table in `main_v0` at the indices in `main_arg2`. -/
theorem stretch2_result (W : Valuation τ sig (Elt F)) :
    StableHlo.after (hostOps1_1 (F := F)) W (Proc.devRef .tc main_v2)
      = takeRows (F := F) (W (Proc.devRef .tc main_v0)) (W (Proc.devRef .tc main_arg2)) := by
  have e : StableHlo.after (hostOps1_1 (F := F)) W (Proc.devRef .tc main_v2)
      = (TRef.of (T := ⟨S640000x128, .f32⟩) main_v2).toBuf (takeRows (F := F)
          ((TRef.of (T := ⟨S100000x128, .f32⟩) main_v0).ofBuf (W (Proc.devRef .tc main_v0)))
          ((TRef.of (T := ⟨S640000, .i32⟩) main_arg2).ofBuf (W (Proc.devRef .tc main_arg2)))) := by
    after_results_simp
    simp only [ofBuf_toBuf]
    unfold takeRows inTable wrapCol wrapIdx
    rfl
  rw [e, toBuf_v2, ofBuf_v0, ofBuf_arg2]

end Cert.KernelIdeal.Hand

end
-- ==== Proof.Mask.lean ====
/-
  Where every index lies in [-100000, 100000) the `take` of rows is the bare gather.
  A signed word `a` in that range, wrapped (`a + 100000` where `a < 0`), lands in [0, 99999]: for negative `a` the sum
  `a + 100000` lies in [0, 100000) and so does not wrap around as a 32-bit word. Hence the per-row test of `takeRows`
  (an `and` over the one entry of the start-index column of the two compares against 0 and 99999) is 1 in every row,
  the selection always takes the gathered row, and the fill word is never read.
-/
import proofs.«412106_j7687991460132_1_alg».proof.Proof.Take
import Idealize.ShloMosaic.Lib.Pipeline.Value

noncomputable section

namespace Cert.KernelIdeal.Hand

open Idealize.ShloMosaic Idealize.ShloMosaic.TcCoe Idealize.SL.Sem
open Cert.KernelIdeal Cert.KernelIdeal.Gen

variable {F : FTy → Type} [FloatOps F]

/-- A signed word in [-100000, 100000), wrapped by adding 100000 where it is negative, lands in [0, 99999]. -/
theorem wrap_in_range (a : BitVec 32) (hlo : IntOp.cmpi .sge a 4294867296#32 = 1#1) (hhi : IntOp.cmpi .slt a 100000#32 = 1#1) :
    IntOp.cmpi .sge (Scalar.select (IntOp.cmpi .slt a 0#32) (IntOp.addi a 100000#32) a) 0#32 = 1#1
    ∧ IntOp.cmpi .sle (Scalar.select (IntOp.cmpi .slt a 0#32) (IntOp.addi a 100000#32) a) 99999#32 = 1#1 := by
  rw [IntOp.cmpi_sge] at hlo
  rw [IntOp.cmpi_slt] at hhi
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [e1] at hlo
  rw [e2] at hhi
  rw [IntOp.cmpi_sge, IntOp.cmpi_sle, e3, e4]
  unfold Scalar.select
  by_cases hneg : a.toInt < 0
  · have hc : IntOp.cmpi .slt a 0#32 = 1#1 := IntOp.cmpi_slt.2 (by rw [e3]; exact hneg)
    rw [if_pos (show IntOp.cmpi .slt a 0#32 = 1 from hc)]
    have hs : (IntOp.addi a 100000#32).toInt = a.toInt + 100000 := by
      show (a + 100000#32).toInt = _
      rw [BitVec.toInt_add, e2, Int.bmod_def]
      split_ifs <;> omega
    rw [hs]; omega
  · have hc : ¬ IntOp.cmpi .slt a 0#32 = 1#1 := fun h => hneg (by have := IntOp.cmpi_slt.1 h; rw [e3] at this; exact this)
    rw [if_neg (show ¬ IntOp.cmpi .slt a 0#32 = 1 from hc)]; omega

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- The row of a [640000,1] start-index entry, and of a [640000,128] entry. -/
abbrev rowOfCol (i : S640000x1.Idx) : S640000.Idx := fun a => match a with
  | ⟨0, _⟩ => ⟨(i 0).val, (i 0).isLt⟩
abbrev rowOf (j : S640000x128.Idx) : S640000.Idx := fun a => match a with
  | ⟨0, _⟩ => ⟨(j 0).val, (j 0).isLt⟩

/-- The start-index column at an entry is the wrapped index of its row. -/
theorem wrapCol_apply (idx : IVec S640000 32) (i : S640000x1.Idx) :
    wrapCol idx i = Scalar.select (IntOp.cmpi .slt (idx (rowOfCol i)) 0#32) (IntOp.addi (idx (rowOfCol i)) 100000#32) (idx (rowOfCol i)) := by
  unfold wrapCol
  rw [broadcastInDim_apply _ bcast_S640000_S640000x1_0 (wrapIdx idx) i (rowOfCol i) (fun a => match a with
    | ⟨0, _⟩ => by show (i 0).val = if (640000 : Nat) = 1 then 0 else (i 0).val; rw [if_neg (by decide)])]
  rfl

/-- With every index in range the per-row test holds in every row. -/
theorem inTable_one (idx : IVec S640000 32)
    (h : ∀ e : S640000.Idx, IntOp.cmpi .sge (idx e) 4294867296#32 = 1#1 ∧ IntOp.cmpi .slt (idx e) 100000#32 = 1#1)
    (e : S640000.Idx) : inTable (wrapCol idx) e = 1#1 := by
  unfold inTable
  rw [Host.reduce_eq_foldl]
  refine foldl_andi_ones _ _ (fun i _ => ?_)
  show IntOp.andi (IntOp.cmpi .sge (wrapCol idx i) 0#32) (IntOp.cmpi .sle (wrapCol idx i) 99999#32) = 1#1
  rw [wrapCol_apply]
  exact IntOp.andi_eq_one.2 (wrap_in_range _ (h _).1 (h _).2)

/-- So the rows taken are the rows gathered at the wrapped indices. -/
theorem takeRows_eq_gather (X : (⟨S100000x128, .f32⟩ : BufTy).Contents (Elt F)) (idx : IVec S640000 32)
    (h : ∀ e : S640000.Idx, IntOp.cmpi .sge (idx e) 4294867296#32 = 1#1 ∧ IntOp.cmpi .slt (idx e) 100000#32 = 1#1) :
    takeRows (F := F) X idx = Host.gather gather_S100000x128_S640000x1_S640000x128_1_0_n_n_0_1_1128 X (wrapCol idx) := by
  funext j
  have hm : broadcastInDim S640000x128 ![0] bcast_S640000_S640000x128_0 (inTable (wrapCol idx)) j = 1#1 := by
    rw [broadcastInDim_apply _ bcast_S640000_S640000x128_0 (inTable (wrapCol idx)) j (rowOf j) (fun a => match a with
      | ⟨0, _⟩ => by show (j 0).val = if (640000 : Nat) = 1 then 0 else (j 0).val; rw [if_neg (by decide)])]
    exact inTable_one idx h _
  unfold takeRows select
  beta_reduce
  rw [hm]
  unfold Scalar.select
  exact if_pos (show (1#1 : BitVec 1) = 1 from rfl)

end Cert.KernelIdeal.Hand

end
-- ==== Proof.Result.lean ====
/-
  The kernel's result as one function of its three arguments, and that it is the reference's.

  @main is five segments. The first region leaves in `main_v0` the table normalized row by row (`normRows`); each of the
  two host stretches takes rows of that table, at the indices in `main_arg1` and in `main_arg2`; the second region leaves
  in `main_v3` the row-wise inner products of the two tables taken (`dotRows`); the last operation recasts that
  [640000] vector as a [640000,1] column. Reading the fold of segment boundaries back from the result buffer gives
  `scores x s d`. Where the indices lie in [-100000, 100000) each `take` is a bare gather at the wrapped indices, which
  is what the reference gathers, from the same normalized table; its host sum is `dotRows`; and a [640000] vector recast
  as a column and the same vector broadcast along a new unit axis both read, at (e, 0), the vector at e.
-/
import proofs.«412106_j7687991460132_1_alg».proof.Proof.Spec
import proofs.«412106_j7687991460132_1_alg».proof.Proof.KernelRun
import proofs.«412106_j7687991460132_1_alg».proof.Proof.NormRegion
import proofs.«412106_j7687991460132_1_alg».proof.Proof.DotRegion
import proofs.«412106_j7687991460132_1_alg».proof.Proof.Mask
import Idealize.ShloMosaic.Lib.Pipeline.Value

noncomputable section

namespace Cert.KernelIdeal.Hand

open Idealize.ShloMosaic Idealize.ShloMosaic.TcCoe Idealize.SL.Sem Idealize.ShloMosaic.StableHlo
open Cert.KernelIdeal Cert.KernelIdeal.Gen

/-- The result: the inner products of the rows taken at `s` and at `d` from the normalized table, as a column. -/
def scores (x : (⟨S100000x128, .f32⟩ : BufTy).Contents (Elt Ideal)) (s d : IVec S640000 32) : (⟨S640000x1, .f32⟩ : BufTy).Contents (Elt Ideal) :=
  shapeCast S640000x1 (Cert.Hand.dotRows (takeRows (F := Ideal) (Cert.Hand.normRows x) s) (takeRows (F := Ideal) (Cert.Hand.normRows x) d)) shapeCasts_S640000_S640000x1

variable (m : (ℓ : Loc nD τ sig) → Buf (Elt Ideal) ℓ) (ρ : Dev nD → PrngReg)

/-! ## The fold of segment boundaries, read back from the result buffer -/

/-- After the first region `main_v0` holds the normalized table. -/
theorem W1_v0 (c : Dev nD) : W1 m ρ c (Proc.devRef .tc main_v0) = Cert.Hand.normRows (m ((c.tc : Thread nD τ).loc main_arg0)) :=
  (W1_arr m ρ c 1).trans (norm_final (V0 m ρ) c)

/-- The first region leaves the index arrays alone. -/
theorem W1_arg1 (c : Dev nD) : W1 m ρ c (Proc.devRef .tc main_arg1) = m ((c.tc : Thread nD τ).loc main_arg1) :=
  W1_of_ne m ρ c main_arg1 (by decide)
theorem W1_arg2 (c : Dev nD) : W1 m ρ c (Proc.devRef .tc main_arg2) = m ((c.tc : Thread nD τ).loc main_arg2) :=
  W1_of_ne m ρ c main_arg2 (by decide)

/-- The first stretch writes neither the table nor the second index array. -/
theorem W2_v0 (c : Dev nD) : W2 m ρ c (Proc.devRef .tc main_v0) = W1 m ρ c (Proc.devRef .tc main_v0) := by
  show StableHlo.after hostOps1 (W1 m ρ c) (Proc.devRef .tc main_v0) = _
  after_results_simp
theorem W2_arg2 (c : Dev nD) : W2 m ρ c (Proc.devRef .tc main_arg2) = W1 m ρ c (Proc.devRef .tc main_arg2) := by
  show StableHlo.after hostOps1 (W1 m ρ c) (Proc.devRef .tc main_arg2) = _
  after_results_simp

/-- After the first stretch `main_v1` holds the rows taken at the first index array. -/
theorem W2_v1 (c : Dev nD) : W2 m ρ c (Proc.devRef .tc main_v1)
    = takeRows (F := Ideal) (Cert.Hand.normRows (m ((c.tc : Thread nD τ).loc main_arg0))) (m ((c.tc : Thread nD τ).loc main_arg1)) := by
  show StableHlo.after hostOps1 (W1 m ρ c) (Proc.devRef .tc main_v1) = _
  rw [stretch1_result, W1_v0, W1_arg1]

/-- The second stretch does not write `main_v1`. -/
theorem W3_v1 (c : Dev nD) : W3 m ρ c (Proc.devRef .tc main_v1) = W2 m ρ c (Proc.devRef .tc main_v1) := by
  show StableHlo.after hostOps1_1 (W2 m ρ c) (Proc.devRef .tc main_v1) = _
  after_results_simp

/-- After the second stretch `main_v2` holds the rows taken at the second index array. -/
theorem W3_v2 (c : Dev nD) : W3 m ρ c (Proc.devRef .tc main_v2)
    = takeRows (F := Ideal) (Cert.Hand.normRows (m ((c.tc : Thread nD τ).loc main_arg0))) (m ((c.tc : Thread nD τ).loc main_arg2)) := by
  show StableHlo.after hostOps1_1 (W2 m ρ c) (Proc.devRef .tc main_v2) = _
  rw [stretch2_result, W2_v0, W1_v0, W2_arg2, W1_arg2]

/-- After the second region `main_v3` holds the inner products of the two tables taken. -/
theorem W4_v3 (c : Dev nD) : W4 m ρ c (Proc.devRef .tc main_v3)
    = Cert.Hand.dotRows
        (takeRows (F := Ideal) (Cert.Hand.normRows (m ((c.tc : Thread nD τ).loc main_arg0))) (m ((c.tc : Thread nD τ).loc main_arg1)))
        (takeRows (F := Ideal) (Cert.Hand.normRows (m ((c.tc : Thread nD τ).loc main_arg0))) (m ((c.tc : Thread nD τ).loc main_arg2))) := by
  have e := (W4_arr m ρ c 2).trans (dot_final (V3 m ρ) c)
  rw [show V3 m ρ c main_v1 = W3 m ρ c (Proc.devRef .tc main_v1) from rfl, show V3 m ρ c main_v2 = W3 m ρ c (Proc.devRef .tc main_v2) from rfl,
    W3_v1, W2_v1, W3_v2] at e
  exact e

/-- The result buffer at the return: `scores` of the three arguments. -/
theorem W5_v4 (c : Dev nD) : W5 m ρ c (Proc.devRef .tc main_v4)
    = scores (m ((c.tc : Thread nD τ).loc main_arg0)) (m ((c.tc : Thread nD τ).loc main_arg1)) (m ((c.tc : Thread nD τ).loc main_arg2)) := by
  show StableHlo.after hostOps2 (W4 m ρ c) (Proc.devRef .tc main_v4) = _
  after_results
  rw [W4_v3]
  rfl

/-- THE RUN, READ: every weakly fair execution of @main terminates with the result buffer at `scores` of the arguments,
    the arguments unchanged. -/
theorem run_scores : θ_run defs (onTc (τ := τ) (main (F := Ideal))) ⟨m, fun _ => 0, ρ⟩ (fun r => ∀ c : Dev nD,
      r.2.mem ((c.tc : Thread nD τ).loc main_v4)
        = scores (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W5_v4 m ρ c), (h c).2⟩) (run_result (F := Ideal) m ρ)

end Cert.KernelIdeal.Hand

end
-- ==== Proof.Bridge.lean ====
/-
  The kernel's result is the reference's last stage where the indices are in range.
  With every index in [-100000, 100000) each `take` is the gather at the wrapped indices; the kernel's gather and its
  start-index column are the reference's own (the same descriptor, the same wrap), taken from the same normalized table;
  the row-wise inner products are the reference's host sum of the products; and the kernel's recast of the [640000]
  vector as a [640000,1] column reads at (e, 0) the vector at e, as does the reference's broadcast along a new unit axis.
-/
import proofs.«412106_j7687991460132_1_alg».proof.Proof.Result
import proofs.«412106_j7687991460132_1_alg».proof.Proof.Gen.ReferenceIdeal.Read

noncomputable section

namespace Cert.KernelIdeal.Hand

open Idealize.ShloMosaic Idealize.ShloMosaic.TcCoe Idealize.SL.Sem
open Cert.KernelIdeal Cert.KernelIdeal.Gen

/-- The kernel's gather at its wrapped start-index column is the reference's gather at its own. -/
theorem gather_ref (X : (⟨S100000x128, .f32⟩ : BufTy).Contents (Elt Ideal)) (s : IVec S640000 32) :
    Host.gather gather_S100000x128_S640000x1_S640000x128_1_0_n_n_0_1_1128 X (wrapCol s)
      = Host.gather Cert.ReferenceIdeal.gather_S100000x128_S640000x1_S640000x128_1_0_n_n_0_1_1128 X (Cert.ReferenceIdeal.Read.val_main_v10 (F := Ideal) s) := rfl

/-- The inner products of the two gathered tables are the reference's host sum. -/
theorem dot_ref (x : (⟨S100000x128, .f32⟩ : BufTy).Contents (Elt Ideal)) (s d : IVec S640000 32) :
    Cert.Hand.dotRows
        (Host.gather Cert.ReferenceIdeal.gather_S100000x128_S640000x1_S640000x128_1_0_n_n_0_1_1128 (Cert.Hand.normRows x) (Cert.ReferenceIdeal.Read.val_main_v10 (F := Ideal) s))
        (Host.gather Cert.ReferenceIdeal.gather_S100000x128_S640000x1_S640000x128_1_0_n_n_0_1_1128 (Cert.Hand.normRows x) (Cert.ReferenceIdeal.Read.val_main_v17 (F := Ideal) d))
      = Cert.ReferenceIdeal.Read.val_main_v20 (F := Ideal) x s d := rfl

/-- The kernel's result is the reference's. -/
theorem scores_eq_ref (x : (⟨S100000x128, .f32⟩ : BufTy).Contents (Elt Ideal)) (s d : IVec S640000 32)
    (hs : ∀ e : S640000.Idx, IntOp.cmpi .sge (s e) 4294867296#32 = 1#1 ∧ IntOp.cmpi .slt (s e) 100000#32 = 1#1)
    (hd : ∀ e : S640000.Idx, IntOp.cmpi .sge (d e) 4294867296#32 = 1#1 ∧ IntOp.cmpi .slt (d e) 100000#32 = 1#1) :
    scores x s d = Cert.ReferenceIdeal.Read.val_main_v21 (F := Ideal) x s d := by
  unfold scores
  rw [takeRows_eq_gather _ s hs, takeRows_eq_gather _ d hd, gather_ref, gather_ref]
  rw [show Cert.ReferenceIdeal.Read.val_main_v10 (F := Ideal) d = Cert.ReferenceIdeal.Read.val_main_v17 (F := Ideal) d from rfl, dot_ref]
  funext i
  rw [Cert.ReferenceIdeal.Read.val_main_v21_apply]
  exact shapeCast_apply _ shapeCasts_S640000_S640000x1 i (Cert.ReferenceIdeal.Read.idx_main_v21 i) (by
    rw [Shape.rowMajor_val_one, Shape.rowMajor_val_two]
    have h1 : (i 1).val < 1 := (i 1).isLt
    show (i 0).val = (i 0).val * 1 + (i 1).val
    omega)

end Cert.KernelIdeal.Hand

end
-- ==== Proof.lean ====
/-
  The certificate: per-edge inner products of L2-normalized feature rows.

  The kernel normalizes the [100000,128] table row by row in a first region (each row over the larger of its Euclidean
  norm and ε), takes its rows at the two signed index arrays on the host (negative indices wrapped by 100000; the fill
  word where a wrapped index is off the table), forms the 640000 row-wise inner products in a second region, and recasts
  them as a column. The reference normalizes, gathers at the same wrapped indices (a gather clamps, it has no fill), sums
  the products on the host and broadcasts to a column. Under the precondition — finite table entries, and every index in
  [-100000, 100000), outside of which the reference itself indexes off the table — the fill is never read and the two
  programs compute one function at the ideal values: the same division, square root and maximum per row, the same sums
  over the 128 columns, the same gathered rows.

  The three frames: the two kernel programs' are their generated frames; the reference's is its generated run with the
  result dropped. The idealization rewrote nothing, so `preserves` is trivial. `algebraic`: the kernel's run with its
  result read back as `scores` of the arguments (Result.lean), the reference's run at its last stage (the generated
  read-back), and `scores_eq_ref` (Bridge.lean) over the index ranges the precondition gives (PreRange.lean).
-/
import proofs.«412106_j7687991460132_1_alg».proof.Defs
import proofs.«412106_j7687991460132_1_alg».proof.Proof.Gen.Kernel
import proofs.«412106_j7687991460132_1_alg».proof.Proof.Gen.Kernel.Skeleton
import proofs.«412106_j7687991460132_1_alg».proof.Proof.Gen.Kernel.Launch
import proofs.«412106_j7687991460132_1_alg».proof.Proof.Gen.Kernel.Points
import proofs.«412106_j7687991460132_1_alg».proof.Proof.Gen.Kernel.Frame
import proofs.«412106_j7687991460132_1_alg».proof.Proof.Gen.KernelIdeal
import proofs.«412106_j7687991460132_1_alg».proof.Proof.Gen.KernelIdeal.Skeleton
import proofs.«412106_j7687991460132_1_alg».proof.Proof.Gen.KernelIdeal.Launch
import proofs.«412106_j7687991460132_1_alg».proof.Proof.Gen.KernelIdeal.Points
import proofs.«412106_j7687991460132_1_alg».proof.Proof.Gen.KernelIdeal.Frame
import proofs.«412106_j7687991460132_1_alg».proof.Proof.Gen.ReferenceIdeal
import proofs.«412106_j7687991460132_1_alg».proof.Proof.Gen.ReferenceIdeal.Run
import proofs.«412106_j7687991460132_1_alg».proof.Proof.Gen.ReferenceIdeal.Read
import proofs.«412106_j7687991460132_1_alg».proof.Proof.Gen.Pre_finite_inputs
import proofs.«412106_j7687991460132_1_alg».proof.Proof.PreRange
import proofs.«412106_j7687991460132_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the column of inner products of the normalized rows at the wrapped indices. -/
theorem algebraic : Cert.algebraic_KernelIdeal_ReferenceIdeal := by
  intro m ρ m' ρ' hpre hagree
  refine ⟨fun c => Cert.KernelIdeal.Hand.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_scores m ρ, ?_⟩
  refine (θ_run Cert.ReferenceIdeal.defs _ _).mono (fun _ h c => ⟨(h c).1.trans ?_, (h c).2⟩)
    (Cert.ReferenceIdeal.Value.run (F := Ideal) m' ρ')
  obtain ⟨hs, hd⟩ := Cert.Hand.index_range _ _ _ (hpre c)
  rw [(hagree c).1, (hagree c).2.1, (hagree c).2.2]
  exact (Cert.ReferenceIdeal.Read.val_main_v21_eq _ _ _).trans (Cert.KernelIdeal.Hand.scores_eq_ref _ _ _ hs hd).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
